-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  reducesTo_S_S_d : S_.ReducesTo [] S_

variable [Facts]

def fn_part1 {F : FTy → Type} [FloatOps F] (main_arg6 : FVec F S_ .f32) (main_v15 : IVec S_ 1) : IVec S_ 1 :=
  let main_v16 : FVec F S_ .f32 := Host.absf main_arg6
  let main_cst_6 : FVec F S_ .f32 := constant S_ .f32 0x7F800000#32
  let main_v17 : IVec S_ 1 := cmpf .olt main_v16 main_cst_6
  let main_c_7 : IVec S_ 1 := constantI S_ 1 1#1
  let main_v18 : IVec S_ 1 := (fun x v => Host.reduce IntOp.andi x v reducesTo_S_S_d h_S_) main_v17 main_c_7
  let main_v19 : IVec S_ 1 := andi main_v15 main_v18
  main_v19

def fn {F : FTy → Type} [FloatOps F] (main_arg0 : FVec F S8192x4096 .f32) (main_arg1 : IVec S4096x4096 32) (main_arg2 : IVec S4096 32) (main_arg3 : FVec F S_ .f32) (main_arg4 : FVec F S_ .f32) (main_arg5 : FVec F S_ .f32) (main_arg6 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg4
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S_ .f32 := Host.absf main_arg5
  let main_cst_4 : FVec F S_ .f32 := constant S_ .f32 0x7F800000#32
  let main_v13 : IVec S_ 1 := cmpf .olt main_v12 main_cst_4
  let main_c_5 : IVec S_ 1 := constantI S_ 1 1#1
  let main_v14 : IVec S_ 1 := (fun x v => Host.reduce IntOp.andi x v reducesTo_S_S_d h_S_) main_v13 main_c_5
  let main_v15 : IVec S_ 1 := andi main_v11 main_v14
  fn_part1 (F := F) main_arg6 main_v15
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 27
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S8192x4096, .bf16⟩
  | .hbm, ⟨26, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x4096.size a
  hwx0_3 : ∀ i : grid0.Coords, EltTy.bits .f32 = 32 ∨ (Rect.block (s := S8192x4096) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v16) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Linear.lean ====
/-
  A dense linear layer over literal shapes, on the extended reals: for activations `x` of shape [8192, 4096]
  (batch × in), a weight matrix `w` of shape [4096, 4096] (out × in) and a bias carried as a one-row matrix `b` of
  shape [1, 4096], the output at (r, o) is

      Σ_{k < 4096} x(r, k) · w(o, k)  +  b(0, o).

  The contraction runs over the SECOND axis of both operands (x · wᵀ). Nothing here mentions a program: both sides of
  the certificate are shown to compute this one function of their weight and bias arrays, whatever those arrays hold.
-/
import Idealize.ShloMosaic.Lib.ValueIdx

noncomputable section

open scoped BigOperators

namespace Cert.Linear

open Idealize.ShloMosaic Idealize.ShloMosaic.ValueIdx

/-- Activations, and outputs: batch × features (in and out features are both 4096). -/
abbrev Rows : Shape := ⟨2, ![8192, 4096]⟩
/-- The weight matrix: out-features × in-features. -/
abbrev Wts : Shape := ⟨2, ![4096, 4096]⟩
/-- The bias as a one-row matrix. -/
abbrev BiasRow : Shape := ⟨2, ![1, 4096]⟩

/-- One output entry from its two coordinates: row `r` of the activations against row `o` of the weights, plus the
    bias at `o`. -/
def entry (x : Rows.Idx → EReal) (w : Wts.Idx → EReal) (b : BiasRow.Idx → EReal) (r : Fin 8192) (o : Fin 4096) : EReal :=
  (∑ k : Fin 4096, x (ix2 r k) * w (ix2 o k)) + b (ix2 (0 : Fin 1) o)

/-- The layer's whole output. -/
def linear (x : Rows.Idx → EReal) (w : Wts.Idx → EReal) (b : BiasRow.Idx → EReal) : Rows.Idx → EReal :=
  fun i => entry x w b (i 0) (i 1)

/-- The output read at coordinates. -/
theorem linear_apply (x : Rows.Idx → EReal) (w : Wts.Idx → EReal) (b : BiasRow.Idx → EReal) (r : Fin 8192) (o : Fin 4096) :
    linear x w b (ix2 r o) = (∑ k : Fin 4096, x (ix2 r k) * w (ix2 o k)) + b (ix2 (0 : Fin 1) o) := rfl

end Cert.Linear

end
-- ==== Proof.RefLinear.lean ====
/-
  The reference computes the linear layer. Its last stage adds two arrays: the `dot_general` of the activations with the
  dequantized weights, contracting the second axis of each, which at the extended reals is the plain sum
  Σ_k x(r, k) · w(o, k); and the bias, first laid out as one row [1, 4096] and then repeated down the 8192 rows, so
  that the entry at (r, o) is the row's entry at (0, o). The dequantized weight and bias arrays themselves are left as the
  reference's own stages: only how the last three operations combine them matters.
-/
import proofs.«424674_j52896817217663_3_alg».proof.Proof.Gen.ReferenceIdeal.Read
import proofs.«424674_j52896817217663_3_alg».proof.Proof.Linear

noncomputable section

open scoped BigOperators

namespace Cert.ReferenceIdeal.RefValue

open Cert.ReferenceIdeal Cert.ReferenceIdeal.Read Idealize.ShloMosaic Idealize.ShloMosaic.ValueIdx

/-- The left operand of the contraction at (r, o), k is the activation at (r, k). -/
theorem lidx_eq (r : Fin 8192) (o : Fin 4096) (k : Fin 4096) : lidx_main_v14 (ix2 r o) k = ix2 r k :=
  funext fun a => by match a with | ⟨0, _⟩ => rfl | ⟨1, _⟩ => rfl

/-- The right operand of the contraction at (r, o), k is the weight at (o, k): row `o` of the weights, not column. -/
theorem ridx_eq (r : Fin 8192) (o : Fin 4096) (k : Fin 4096) : ridx_main_v14 (ix2 r o) k = ix2 o k :=
  funext fun a => by match a with | ⟨0, _⟩ => rfl | ⟨1, _⟩ => rfl

/-- The repeated bias at (r, o) is the bias row at (0, o). -/
theorem bidx_eq (r : Fin 8192) (o : Fin 4096) : idx_main_v16 (ix2 r o) = ix2 (0 : Fin 1) o :=
  funext fun a => by match a with | ⟨0, _⟩ => rfl | ⟨1, _⟩ => rfl

/-- The reference's result is the linear layer of the activations, its dequantized weights and its bias row. -/
theorem result_eq_linear (x0 : (⟨S8192x4096, .f32⟩ : BufTy).Contents (Elt Ideal)) (x1 : (⟨S4096x4096, .i32⟩ : BufTy).Contents (Elt Ideal))
    (x2 : (⟨S4096, .i32⟩ : BufTy).Contents (Elt Ideal)) (x3 x4 x5 x6 : (⟨S_, .f32⟩ : BufTy).Contents (Elt Ideal)) :
    val_main_v17 (F := Ideal) x0 x1 x2 x3 x4 x5 x6
      = Cert.Linear.linear x0 (val_main_v6 (F := Ideal) x1 x3 x4) (val_main_v15 (F := Ideal) x2 x5 x6) := by
  funext i
  obtain ⟨r, o, rfl⟩ : ∃ (r : Fin 8192) (o : Fin 4096), i = ix2 r o := ⟨i 0, i 1, eq_ix2 i⟩
  rw [val_main_v17_apply, val_main_v14_apply, val_main_v16_apply, Cert.Linear.linear_apply, bidx_eq]
  simp only [lidx_eq, ridx_eq]
  rfl

end Cert.ReferenceIdeal.RefValue

end
-- ==== Proof.Payload.lean ====
/-
  What the kernel body stores, entry by entry, at the extended reals. The body loads an activation block `xb` of shape
  [1024, 4096], a weight block `wb` of shape [256, 4096] and a bias block `bb` of shape [1, 256], multiplies the first two
  on the matrix unit contracting the second axis of each into a zero accumulator, repeats the bias row down the 1024 rows
  and adds. So the stored entry at (p, q) is

      Σ_{k < 4096} xb(p, k) · wb(q, k)  +  bb(0, q):

  the zero accumulator contributes nothing, the shape casts to the same shape are the identity, and the contraction's
  index set is its one coordinate.
-/
import proofs.«424674_j52896817217663_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's left operand index keeps the output's row on its first axis … -/
theorem lhs_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- … and carries the contraction's coordinate on its second. -/
theorem lhs_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The right operand index takes the output's COLUMN on its first axis (the weights are used transposed) … -/
theorem rhs_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- … and the contraction's coordinate on its second. -/
theorem rhs_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The matrix product into a zero accumulator, at (p, q): the sum over the shared axis of row `p` against row `q`. -/
theorem product_apply (l : FVec Ideal S1024x4096 .bf16) (r : FVec Ideal S256x4096 .bf16) (p : Fin 1024) (q : Fin 256) :
    matmul dot_S1024x4096_S256x4096_S1024x256_1_1_0_0_n_n none l r (constant (F := Ideal) S1024x256 .f32 0x00000000#32) (ix2 p q)
      = ∑ k : Fin 4096, l (ix2 p k) * r (ix2 q k) := by
  refine (Ideal.matmul_constant_zero_apply dot_S1024x4096_S256x4096_S1024x256_1_1_0_0_n_n none l r (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_0 _ _
    | ⟨1, _⟩ => exact (lhs_1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- The stored value at (p, q): the row-against-row sum plus the bias block's entry at (0, q). -/
theorem stored_apply (xb : FVec Ideal S1024x4096 .bf16) (wb : FVec Ideal S256x4096 .bf16) (bb : FVec Ideal S1x256 .f32)
    (p : Fin 1024) (q : Fin 256) :
    k0_pay1 (F := Ideal) xb wb bb (ix2 p q) = (∑ k : Fin 4096, xb (ix2 p k) * wb (ix2 q k)) + bb (ix2 (0 : Fin 1) q) := by
  unfold k0_pay1
  rw [addf_apply, shapeCast_self, shapeCast_self, shapeCast_self, product_apply, broadcastTo_1b_ab_apply]

end Cert.KernelIdeal.Body

end
-- ==== Proof.Tiles.lean ====
/-
  From the 128 output tiles to the whole output array, at the extended reals.

  The launch runs the body on an 8 × 16 grid. At grid point (a, b) the body sees rows [1024·a, 1024·a + 1024) of the
  activations (all 4096 columns), rows [256·b, 256·b + 256) of the weights (all 4096 columns) and columns
  [256·b, 256·b + 256) of the one-row bias, and writes the output tile with rows [1024·a, …) and columns [256·b, …).
  So entry (p, q) of the tile is entry (1024·a + p, 256·b + q) of the layer applied to the WHOLE arrays: the row of the
  activations it uses is row 1024·a + p, the row of the weights it uses is row 256·b + q, the contraction always runs
  over all 4096 columns, and the bias entry is the one at column 256·b + q. The 128 tiles are pairwise disjoint and
  together cover every index of the [8192, 4096] output (row r lies in tile row r / 1024, column o in tile column
  o / 256), so after the run the output array IS the layer of the three arrays the launch was given.
-/
import proofs.«424674_j52896817217663_3_alg».proof.Proof.Gen.KernelIdeal.Value
import proofs.«424674_j52896817217663_3_alg».proof.Proof.Payload
import proofs.«424674_j52896817217663_3_alg».proof.Proof.Linear

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its block. -/
theorem origin : (![0, 0] : Fin 2 → Nat) = fun _ => 0 := funext fun a => by fin_cases a <;> rfl

/-- The layer applied to the three arrays the launch stages: activations, weights, and the one-row bias, each as the
    host operations before the launch left it. -/
abbrev layer (c : Dev nD) : S8192x4096.Idx → EReal :=
  Cert.Linear.linear (V m c main_v16) (V m c main_v7) (V m c main_v15)

/-- How the four block index maps sit against each other, at every grid point: the activation block follows the output
    tile's ROW index and spans all columns; the weight block follows the output tile's COLUMN index and spans all
    columns; the bias block is in the one row and follows the output tile's column index; and the output tile's indices
    stay inside the 8 × 16 grid. -/
theorem tile_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every tile of the 8 × 16 arrangement is some grid point's. -/
theorem tile_onto : ∀ (a : Fin 8) (b : Fin 16), ∃ t : Fin cfg0.N, win0_3.index t = ![a.val, b.val] :=
  (by decide +kernel : ∀ (a : Fin 8) (b : Fin 16), ∃ t : Fin grid0.N, win0_3.index t = ![a.val, b.val])

/-- WHAT GRID POINT `t` WRITES BACK is tile `t` of the layer of the whole staged arrays. -/
theorem flushed_eq (c : Dev nD) (t : Fin cfg0.N) :
    (dats m 0 c).flushed 3 t = ((cfg0.win 3).blk t).view.read (Elt Ideal) (layer m c) := by
  rw [Cert.KernelIdeal.Value.flushed3]
  unfold out0_3
  rw [View.canon_unit_zero origin]
  simp only [View.ld_unit_zero (S := S1024x4096) origin, View.ld_unit_zero (S := S256x4096) origin,
    View.ld_unit_zero (S := S1x256) origin]
  obtain ⟨e0, e1, e2, e3, e4, e5, e6, e7⟩ := tile_facts t
  funext j
  obtain ⟨p, q, rfl⟩ : ∃ (p : Fin 1024) (q : Fin 256), j = ix2 p q := ⟨j 0, j 1, eq_ix2 j⟩
  have hp : p.val < 1024 := p.isLt
  have hq : q.val < 256 := q.isLt
  -- the array index under entry (p, q) of the tile
  have hi : ((cfg0.win 3).blk t).view.emb (ix2 p q)
      = ix2 (⟨win0_3.index t (0 : Fin 2) * 1024 + p.val, by omega⟩ : Fin 8192) (⟨win0_3.index t (1 : Fin 2) * 256 + q.val, by omega⟩ : Fin 4096) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = win0_3.index t (1 : Fin 2) * 256 + q.val; omega
  -- the activation block's row p is the array's row under the tile's row p, every column
  have hx : ∀ k : Fin 4096, iblk m c 0 t (ix2 p k)
      = V m c main_v16 (ix2 (⟨win0_3.index t (0 : Fin 2) * 1024 + p.val, by omega⟩ : Fin 8192) k) := fun k => by
    have hk : k.val < 4096 := k.isLt
    show V m c main_v16 (((cfg0.win 0).blk t).view.emb (ix2 p k)) = _
    refine congrArg (V m c main_v16) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  -- the weight block's row q is the array's row under the tile's COLUMN q, every column
  have hw : ∀ k : Fin 4096, iblk m c 1 t (ix2 q k)
      = V m c main_v7 (ix2 (⟨win0_3.index t (1 : Fin 2) * 256 + q.val, by omega⟩ : Fin 4096) k) := fun k => by
    have hk : k.val < 4096 := k.isLt
    show V m c main_v7 (((cfg0.win 1).blk t).view.emb (ix2 q k)) = _
    refine congrArg (V m c main_v7) (funext fun a => Fin.ext ?_)
    match a with
    | ⟨0, _⟩ => show win0_1.index t (0 : Fin 2) * 256 + 1 * q.val = win0_3.index t (1 : Fin 2) * 256 + q.val; omega
    | ⟨1, _⟩ => show win0_1.index t (1 : Fin 2) * 4096 + 1 * k.val = k.val; omega
  -- the bias block's entry q is the bias row's entry under the tile's column q
  have hb : iblk m c 2 t (ix2 (0 : Fin 1) q)
      = V m c main_v15 (ix2 (0 : Fin 1) (⟨win0_3.index t (1 : Fin 2) * 256 + q.val, by omega⟩ : Fin 4096)) := by
    show V m c main_v15 (((cfg0.win 2).blk t).view.emb (ix2 (0 : Fin 1) q)) = _
    refine congrArg (V m c main_v15) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + q.val; omega
  show k0_pay1 (F := Ideal) (iblk m c 0 t) (iblk m c 1 t) (iblk m c 2 t) (ix2 p q)
      = layer m c (((cfg0.win 3).blk t).view.emb (ix2 p q))
  refine (Cert.KernelIdeal.Body.stored_apply (iblk m c 0 t) (iblk m c 1 t) (iblk m c 2 t) p q).trans ?_
  rw [hi, hb]
  show _ = Cert.Linear.linear (V m c main_v16) (V m c main_v7) (V m c main_v15) _
  rw [Cert.Linear.linear_apply]
  exact congrArg (· + _) (Finset.sum_congr rfl fun k _ => by rw [hx k, hw k])

/-- An index of the output array is in grid point `t`'s tile iff each coordinate is in the tile's range on its axis. -/
theorem mem_tile (t : Fin cfg0.N) (i : S8192x4096.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v17).slice (win0_3.rect t)).set ↔ _
  rw [View.set_slice_whole, Rect.mem_set_unit]
  exact Iff.rfl

/-- The tiles cover the output: row `r` is in tile row `r / 1024`, column `o` in tile column `o / 256`. -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- THE OUTPUT ARRAY after the run is the layer of the staged arrays. -/
theorem final (c : Dev nD) : (dats m 0 c).arrAt 3 cfg0.N = layer m c :=
  (dats m 0 c).arrAt_eq_of_cover 3 (layer m c) (fun t _ => flushed_eq m c t) tiles_cover

/-- The kernel's run, with its result named: every weakly fair execution terminates with the output array at the layer
    of the staged arrays and the seven arguments unchanged. -/
theorem run : θ_run defs (onTc (τ := τ) (main (F := Ideal))) ⟨m, fun _ => 0, ρ⟩ fun r => ∀ c : Dev nD,
      r.2.mem ((c : Thread nD τ).loc main_v17) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Tiles

end
-- ==== Proof.Staged.lean ====
/-
  What the launch is given. Before the launch the program prepares three arrays on the host, and at the extended reals
  each is an array the reference also forms:

    * the activations rounded to bf16 — a change of float format, which is the identity on extended reals, so the
      staged array is the argument `x` itself;
    * the weights: the integer words converted to floats, shifted by 32768, scaled and offset, then rounded to bf16 —
      again the identity — so the staged array is the reference's dequantized weight array, the same chain of
      operations on the same arguments;
    * the bias: the same affine chain on the bias words, a vector of 4096 entries, then RESHAPED to one row [1, 4096].
      The reference instead lays its bias vector out as one row by a broadcast along the second axis. Both rows hold
      the vector's entry `o` at (0, o): a reshape keeps row-major position, and position of (0, o) in one row is `o`.
-/
import proofs.«424674_j52896817217663_3_alg».proof.Proof.Gen.KernelIdeal.Frame
import proofs.«424674_j52896817217663_3_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged activations are the argument. -/
theorem acts_eq (c : Dev nD) :
    (V m c main_v16 : S8192x4096.Idx → EReal) = m ((c : Thread nD τ).loc main_arg0) := by
  dsimp only [Gen.V, Gen.hostOps0]; after_results; rfl

/-- The staged weights are the reference's dequantized weights of the same arguments. -/
theorem wts_eq (c : Dev nD) :
    (V m c main_v7 : S4096x4096.Idx → EReal)
      = Cert.ReferenceIdeal.Read.val_main_v6 (F := Ideal) (m ((c : Thread nD τ).loc main_arg1))
          (m ((c : Thread nD τ).loc main_arg3)) (m ((c : Thread nD τ).loc main_arg4)) := by
  dsimp only [Gen.V, Gen.hostOps0]; after_results; rfl

/-- In a one-row layout the reference reads its bias vector at the column. -/
theorem row_idx (u : Fin 1) (o : Fin 4096) : Cert.ReferenceIdeal.Read.idx_main_v15 (ix2 u o) = ix1 o :=
  funext fun a => by match a with | ⟨0, _⟩ => rfl

/-- The staged bias row is the reference's bias row of the same arguments. -/
theorem bias_eq (c : Dev nD) :
    (V m c main_v15 : S1x4096.Idx → EReal)
      = Cert.ReferenceIdeal.Read.val_main_v15 (F := Ideal) (m ((c : Thread nD τ).loc main_arg2))
          (m ((c : Thread nD τ).loc main_arg5)) (m ((c : Thread nD τ).loc main_arg6)) := by
  dsimp only [Gen.V, Gen.hostOps0]; after_results
  funext j
  obtain ⟨u, o, rfl⟩ : ∃ (u : Fin 1) (o : Fin 4096), j = ix2 u o := ⟨j 0, j 1, eq_ix2 j⟩
  rw [Cert.ReferenceIdeal.Read.val_main_v15_apply, row_idx]
  show shapeCast S1x4096 _ shapeCasts_S4096_S1x4096 (ix2 u o) = _
  refine (shapeCast_a_1a_apply _ _ u o).trans ?_
  rfl

end Cert.KernelIdeal.Staged

end
-- ==== Proof.lean ====
/-
  A quantized dense layer: the kernel against its reference, at the extended reals.

  Both programs take activations `x` [8192, 4096], integer weight words `q` [4096, 4096], integer bias words [4096] and
  four scalars, dequantize by the same affine chain — word → float, + 32768, · scale, + offset — and return
  x · wᵀ + bias:

      out(r, o) = Σ_{k < 4096} x(r, k) · w(o, k)  +  bias(o).

  The reference does this with one `dot_general` contracting the second axis of both operands and a broadcast of the
  bias. The kernel rounds `x` and `w` to bf16 first (the identity on extended reals), reshapes the bias to one row,
  and computes the output in 8 × 16 tiles of 1024 × 256, each tile one matrix product over the full contraction into a
  zero accumulator plus the tile's slice of the bias row.

  The two agree without any appeal to finiteness of the inputs: a tile entry (p, q) of tile (a, b) is by definition
  the same sum of the same 4096 products as the reference's entry (1024·a + p, 256·b + q) — the zero accumulator adds
  nothing, the tiling only renames indices, and the tiles cover the output exactly once. The dequantized weight and
  bias arrays are never opened: the kernel's staged arrays are shown equal to the reference's own stages.

  Modules: `Linear` (the layer as one function of activations, weights and a bias row), `RefLinear` (the reference's
  last stage is that function), `Payload` (the body's stored value at an entry), `Tiles` (tile `t` of the layer is
  what point `t` writes; the tiles cover; the kernel's run), `Staged` (what the three staged arrays hold).
-/
import proofs.«424674_j52896817217663_3_alg».proof.Defs
import proofs.«424674_j52896817217663_3_alg».proof.Proof.Gen.Kernel
import proofs.«424674_j52896817217663_3_alg».proof.Proof.Gen.Kernel.Skeleton
import proofs.«424674_j52896817217663_3_alg».proof.Proof.Gen.Kernel.Launch
import proofs.«424674_j52896817217663_3_alg».proof.Proof.Gen.Kernel.Points
import proofs.«424674_j52896817217663_3_alg».proof.Proof.Gen.Kernel.Frame
import proofs.«424674_j52896817217663_3_alg».proof.Proof.Gen.KernelIdeal
import proofs.«424674_j52896817217663_3_alg».proof.Proof.Gen.KernelIdeal.Skeleton
import proofs.«424674_j52896817217663_3_alg».proof.Proof.Gen.KernelIdeal.Launch
import proofs.«424674_j52896817217663_3_alg».proof.Proof.Gen.KernelIdeal.Points
import proofs.«424674_j52896817217663_3_alg».proof.Proof.Gen.KernelIdeal.Frame
import proofs.«424674_j52896817217663_3_alg».proof.Proof.Gen.ReferenceIdeal
import proofs.«424674_j52896817217663_3_alg».proof.Proof.Gen.Pre_finite_inputs
import proofs.«424674_j52896817217663_3_alg».proof.Proof.Gen.KernelIdeal.Value
import proofs.«424674_j52896817217663_3_alg».proof.Proof.Gen.ReferenceIdeal.Run
import proofs.«424674_j52896817217663_3_alg».proof.Proof.Gen.ReferenceIdeal.Read
import proofs.«424674_j52896817217663_3_alg».proof.Proof.Linear
import proofs.«424674_j52896817217663_3_alg».proof.Proof.RefLinear
import proofs.«424674_j52896817217663_3_alg».proof.Proof.Payload
import proofs.«424674_j52896817217663_3_alg».proof.Proof.Tiles
import proofs.«424674_j52896817217663_3_alg».proof.Proof.Staged
import Idealize.ShloMosaic.Adequacy
import Idealize.ShloMosaic.Init

noncomputable section

namespace Cert.Proof

open Idealize.ShloMosaic Idealize.ShloMosaic.TcCoe Idealize.SL.Sem

/-- The common result, as a function of the kernel's argument arrays: the layer of the activations, the dequantized
    weights and the bias row. -/
abbrev result (m : (ℓ : Loc Cert.KernelIdeal.nD Cert.KernelIdeal.τ Cert.KernelIdeal.sig) → Buf (Elt Ideal) ℓ) (c : Dev Cert.KernelIdeal.nD) :
    Cert.Linear.Rows.Idx → EReal :=
  Cert.Linear.linear (m ((c.tc : Thread Cert.KernelIdeal.nD Cert.KernelIdeal.τ).loc Cert.KernelIdeal.main_arg0))
    (Cert.ReferenceIdeal.Read.val_main_v6 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
    (Cert.ReferenceIdeal.Read.val_main_v15 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))

/-- The layer of the staged arrays is the layer of the arguments: each staged array is the argument, or the reference's
    stage of the arguments. -/
theorem staged_result (m : (ℓ : Loc Cert.KernelIdeal.nD Cert.KernelIdeal.τ Cert.KernelIdeal.sig) → Buf (Elt Ideal) ℓ) (c : Dev Cert.KernelIdeal.nD) :
    Cert.KernelIdeal.Tiles.layer m c = result m c := by
  show Cert.Linear.linear (Cert.KernelIdeal.Gen.V m c Cert.KernelIdeal.main_v16) (Cert.KernelIdeal.Gen.V m c Cert.KernelIdeal.main_v7) (Cert.KernelIdeal.Gen.V m c Cert.KernelIdeal.main_v15) = _
  rw [Cert.KernelIdeal.Staged.acts_eq m c, Cert.KernelIdeal.Staged.wts_eq m c, Cert.KernelIdeal.Staged.bias_eq m c]

/-- The word-level kernel runs and leaves its arguments as they were. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the same output array: the kernel's tiles
    assemble the layer of its staged arrays, which are the reference's stages; the reference's last stage is the layer
    of those stages. -/
theorem algebraic : Cert.algebraic_KernelIdeal_ReferenceIdeal := by
  intro m ρ m' ρ' _ hagree
  refine ⟨result m, ?_, ?_⟩
  · exact (θ_run Cert.KernelIdeal.defs _ _).mono (fun r h c => ⟨(h c).1.trans (staged_result m c), (h c).2⟩)
      (Cert.KernelIdeal.Tiles.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v17_eq _ _ _ _ _ _ _).trans (Cert.ReferenceIdeal.RefValue.result_eq_linear _ _ _ _ _ _ _)

/-- The certificate: the three runs, the idealization (no rewrite was applied, so nothing to preserve), and the
    equality of results. -/
theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
